-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 65
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .bf16⟩
  | .hbm, ⟨60, _⟩ => ⟨S8192x4096, .f32⟩
  | .hbm, ⟨61, _⟩ => ⟨S8192x4096, .bf16⟩
  | .hbm, ⟨62, _⟩ => ⟨S1x4096, .f32⟩
  | .hbm, ⟨63, _⟩ => ⟨S8192x4096, .f32⟩
  | .hbm, ⟨64, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_cst_3 : Ref sig .tc := ⟨.hbm, 23, rfl⟩
abbrev main_call0_call0_v11 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_v0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S_d0_1 : S4096x4096.ReducesTo [0, 1] S_
  h_S_ : 0 < S_.numel
  bcast_S_S1x1 : S_.BroadcastsInDim S1x1 (![] : Fin 0 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  natLt_1_32 : 1 < 32
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v30) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S1x1x4096 : Shape := ⟨3, ![1, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .i1⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4x2048x4096, .f32⟩
  | .hbm, ⟨61, _⟩ => ⟨S1x1x4096, .f32⟩
  | .hbm, ⟨62, _⟩ => ⟨S4x2048x4096, .f32⟩
  | .hbm, ⟨63, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_cst_3 : Ref sig .tc := ⟨.hbm, 23, rfl⟩
abbrev main_call0_call0_v11 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_v0 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S1x1 : S_.BroadcastsInDim S1x1 (![] : Fin 0 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  natLt_1_32 : 1 < 32
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once, with no program in sight.

  From a weight matrix w (4096 × 4096) both programs first make a "simulated" weight matrix: with
  mean the mean of all entries and std the unbiased standard deviation, an entry is an OUTLIER when it is
  below mean − 1.6·std or above mean + 1.6·std; the scale is the mean of |w| over the entries that are not
  outliers; an outlier keeps its value (times 1), every other entry becomes its sign times the scale.
  One program takes the sign directly, the other writes it as  w + (sign w − w); over finite entries these
  are the same number.  The result is  x · wsimᵀ + bias : entry (a, b, o) is the sum over k of
  x (a, b, k) · wsim (o, k), plus bias o.
-/
import Idealize.ShloMosaic.PureOps.Ideal
import Idealize.ShloMosaic.PureOps.Ideal.Laws
import Idealize.ShloMosaic.Lib.ValueIdx

noncomputable section

namespace Cert.BinLin

open Idealize.ShloMosaic Idealize.ShloMosaic.ValueIdx

abbrev SW : Shape := ⟨2, ![4096, 4096]⟩
abbrev S0 : Shape := ⟨0, ![]⟩
abbrev S11 : Shape := ⟨2, ![1, 1]⟩
abbrev SX : Shape := ⟨3, ![4, 2048, 4096]⟩
abbrev SB : Shape := ⟨1, ![4096]⟩

theorem red : SW.ReducesTo [0, 1] S0 := by decide
theorem hS0 : 0 < S0.numel := by decide
theorem b0_11 : S0.BroadcastsInDim S11 (![] : Fin 0 → Fin S11.rank) := by decide
theorem b11_W : S11.BroadcastsInDim SW (![0, 1] : Fin 2 → Fin SW.rank) := by decide
theorem b0_W : S0.BroadcastsInDim SW (![] : Fin 0 → Fin SW.rank) := by decide
theorem lt_1_32 : 1 < 32 := by decide

variable {F : FTy → Type} [FloatOps F]

/-- The mean of all entries: their sum divided by 4096². -/
def mean (w : FVec F SW .f32) : FVec F S0 .f32 :=
  Host.divf (Host.reduceAdd w (constant (F := F) S0 .f32 0x00000000#32) red hS0) (constant (F := F) S0 .f32 0x4B800000#32)

/-- The entries with the mean taken off (the mean computed here through a 1 × 1 array, as the variance does). -/
def centred (w : FVec F SW .f32) : FVec F SW .f32 :=
  subf w (broadcastInDim SW ![0, 1] b11_W
    (Host.divf (broadcastInDim S11 ![] b0_11 (Host.reduceAdd w (constant (F := F) S0 .f32 0x00000000#32) red hS0))
      (broadcastInDim S11 ![] b0_11 (constant (F := F) S0 .f32 0x4B800000#32))))

/-- The divisor of the variance: 4096² less the correction `one` (the unbiased variance has `one` = 1). -/
def dofOf (one : IVec S0 32) : FVec F S0 .f32 :=
  subf (constant (F := F) S0 .f32 0x4B800000#32) (sitofp .f32 one)

/-- The variance: the sum of the squared centred entries over that divisor (a not-a-number word where the
    divisor is not positive). -/
def varianceOf (w : FVec F SW .f32) (one : IVec S0 32) : FVec F S0 .f32 :=
  select (cmpf .ogt (dofOf (F := F) one) (constant (F := F) S0 .f32 0x00000000#32))
    (Host.divf (Host.reduceAdd (mulf (centred w) (centred w)) (constant (F := F) S0 .f32 0x00000000#32) red hS0) (dofOf (F := F) one))
    (id (constant (F := F) S0 .f32 0x7FC00000#32))

/-- The standard deviation with correction `one`. -/
def stdOf (w : FVec F SW .f32) (one : IVec S0 32) : FVec F S0 .f32 := Host.sqrt (varianceOf w one)

/-- The unbiased standard deviation. -/
def std (w : FVec F SW .f32) : FVec F S0 .f32 := stdOf w (constantI S0 32 1#32)

/-- mu − 1.6 · sd and mu + 1.6 · sd. -/
def lowerOf (mu sd : FVec F S0 .f32) : FVec F S0 .f32 := subf mu (mulf (constant (F := F) S0 .f32 0x3FCCCCCD#32) sd)
def upperOf (mu sd : FVec F S0 .f32) : FVec F S0 .f32 := addf mu (mulf (constant (F := F) S0 .f32 0x3FCCCCCD#32) sd)

/-- The outlier mask for a centre mu and a spread sd: below mu − 1.6·sd or above mu + 1.6·sd. -/
def outlierOf (w : FVec F SW .f32) (mu sd : FVec F S0 .f32) : IVec SW 1 :=
  ori (cmpf .olt w (broadcastInDim SW ![] b0_W (lowerOf mu sd))) (cmpf .ogt w (broadcastInDim SW ![] b0_W (upperOf mu sd)))

/-- Its complement. -/
def keepOf (w : FVec F SW .f32) (mu sd : FVec F S0 .f32) : IVec SW 1 := noti (outlierOf w mu sd)

/-- The scale: the sum of |w| over the kept entries divided by their number. -/
def scaleOf (w : FVec F SW .f32) (mu sd : FVec F S0 .f32) : FVec F S0 .f32 :=
  Host.divf (Host.reduceAdd (mulf (Host.absf w) (uitofp .f32 (keepOf w mu sd))) (constant (F := F) S0 .f32 0x00000000#32) red hS0)
    (sitofp .f32 (Host.reduce IntOp.addi (extui 32 (keepOf w mu sd) lt_1_32) (constantI S0 32 0#32) red hS0))

/-- The entries times one: what an outlier keeps. -/
def timesOne (w : FVec F SW .f32) : FVec F SW .f32 :=
  mulf w (broadcastInDim SW ![] b0_W (constant (F := F) S0 .f32 0x3F800000#32))

/-- A kept entry, the sign taken directly: sign · scale. -/
def binarised (w : FVec F SW .f32) (mu sd : FVec F S0 .f32) : FVec F SW .f32 :=
  mulf (Host.sign w) (broadcastInDim SW ![] b0_W (scaleOf w mu sd))

/-- A kept entry, the sign written  w + (sign w − w). -/
def binarisedSte (w : FVec F SW .f32) (mu sd : FVec F S0 .f32) : FVec F SW .f32 :=
  mulf (addf w (subf (Host.sign w) w)) (broadcastInDim SW ![] b0_W (scaleOf w mu sd))

/-- The simulated weights for a centre and a spread, the sign taken directly. -/
def wsimOf (w : FVec F SW .f32) (mu sd : FVec F S0 .f32) : FVec F SW .f32 :=
  select (outlierOf w mu sd) (timesOne w) (binarised w mu sd)

/-- The same, the sign written  w + (sign w − w). -/
def wsimSteOf (w : FVec F SW .f32) (mu sd : FVec F S0 .f32) : FVec F SW .f32 :=
  select (outlierOf w mu sd) (timesOne w) (binarisedSte w mu sd)

/-- The simulated weights: centre the mean, spread the unbiased standard deviation. -/
def wsim (w : FVec F SW .f32) : FVec F SW .f32 := wsimOf w (mean w) (std w)

/-- The same, the sign written  w + (sign w − w). -/
def wsimSte (w : FVec F SW .f32) : FVec F SW .f32 := wsimSteOf w (mean w) (std w)

/-! ## The linear layer over the exact reals, and the index arithmetic of the blocked product -/

/-- Entry (a, s, o) of  x · Wᵀ + b : the sum over k of x (a, s, k) · W (o, k), plus b o. -/
def linearAt (x : FVec Ideal SX .f32) (W : FVec Ideal SW .f32) (b : FVec Ideal SB .f32)
    (a : Fin 4) (s : Fin 2048) (o : Fin 4096) : EReal :=
  (∑ k : Fin 4096, x (ix3 a s k) * W (ix2 o k)) + b (ix1 o)

/-- x · Wᵀ + b as an array. -/
def linear (x : FVec Ideal SX .f32) (W : FVec Ideal SW .f32) (b : FVec Ideal SB .f32) : FVec Ideal SX .f32 :=
  fun i => linearAt x W b (i 0) (i 1) (i 2)

/-- Position k of block l (taken mod 4) among four blocks of 1024: l · 1024 + k. -/
def cat4 (l : ℕ) (k : Fin 1024) : Fin 4096 := ⟨(l % 4) * 1024 + k.val, by have := k.isLt; omega⟩

/-- Position p of block i (taken mod 8) among eight blocks of 1024: i · 1024 + p. -/
def cat8 (i : ℕ) (p : Fin 1024) : Fin 8192 := ⟨(i % 8) * 1024 + p.val, by have := p.isLt; omega⟩

end Cert.BinLin

end
-- ==== Proof.KerPieces.lean ====
/-
  What one run of the kernel body leaves behind, case by case, as plain values.

  The body keeps a 1024 × 1024 accumulator.  At the first step of a reduction (case A) it stores the zero
  block, reads it back and stores  0-block + a·b  (a, b the two operand blocks, a·b their matrix product into
  a zero accumulator).  At a middle step (case B) it stores  acc + a·b  over the accumulator acc the step
  before left.  At the last step (case C) it does the same and then writes  (acc + a·b) + bias-row broadcast
  down the rows  into the output block.
-/
import proofs.«156079_j6511170421195_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case A: the accumulator ends at the zero block plus the product of the two operand blocks. -/
theorem sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  -- the accumulator is covered by its stores, so what it holds is the stores' pieces read back
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  -- two whole-block stores: the later one decides; the block it adds to is the earlier store (the zero block) read back
  rw [View.canon_cons_unit_zero (S := S1024x1024) hz, View.readCov_unit_zero (S := S1024x1024) _ hz]
  -- the operand blocks are loaded whole
  simp only [View.readAt_eq_ld, harg3.read_unread, harg4.read_unread, View.ld_unit_zero (S := S1024x1024) hz]

/-- Case B: the accumulator ends at what it held plus the product of the two operand blocks. -/
theorem sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  -- one whole-block store, of the update over the accumulator and the operand blocks as loaded whole
  rw [View.canon_unit_zero hz]
  simp only [View.readAt_eq_ld, harg3.read_unread, harg4.read_unread, harg7.read_unread, View.ld_unit_zero (S := S1024x1024) hz]

/-- Case C: the accumulator, as in case B. -/
theorem sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  -- one whole-block store, as in case B
  rw [View.canon_unit_zero hz]
  simp only [View.readAt_eq_ld, harg3.read_unread, harg4.read_unread, harg7.read_unread, View.ld_unit_zero (S := S1024x1024) hz]

/-- Case C: the output block is the new accumulator plus the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  -- one whole-block store into the output; the accumulator it reads is the update just stored, read back whole,
  -- and the bias row is loaded whole
  rw [View.canon_unit_zero hz]
  simp only [View.readCov_unit_zero (S := S1024x1024) _ hz, View.readAt_eq_ld, harg3.read_unread, harg4.read_unread,
    harg5.read_unread, harg7.read_unread, View.ld_unit_zero (S := S1024x1024) hz, View.ld_unit_zero (S := S1x1024) hz]

end Cert.KernelIdeal.Pieces

end
-- ==== Proof.KerPay.lean ====
/-
  The body's three stored values read at one entry, over the exact reals: the zero block is 0; the updated
  accumulator at (p, q) is the old one there plus the sum over k of a (p, k) · b (k, q); the output at (p, q)
  is the accumulator there plus the bias row's entry q.
-/
import proofs.«156079_j6511170421195_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

/-! The product's two operand indices at output entry `i` and contraction position `q`, axis by axis: the left
    operand is read at row `i 0` and column `q`, the right operand at row `q` and column `i 1`. -/

private theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

private theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

private theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

private theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The zero block. -/
theorem pay1_at (p q : Fin 1024) : k0_pay1 (F := Ideal) (ix2 p q) = 0 := by
  unfold k0_pay1
  -- a cast to the same shape changes nothing; a splat reads its scalar everywhere; the zero word is the real 0
  refine (congrFun (shapeCast_self _ _) (ix2 p q)).trans ?_
  exact Ideal.ofBits_zero_f32

/-- The updated accumulator at an entry. -/
theorem pay2_at (v3 : Vec Ideal S1024x1024 .f32) (v4 v6 : Vec Ideal S1024x1024 .bf16) (p q : Fin 1024) :
    k0_pay2 (F := Ideal) v3 v4 v6 (ix2 p q) = v3 (ix2 p q) + ∑ k : Fin 1024, v4 (ix2 p k) * v6 (ix2 k q) := by
  unfold k0_pay2
  -- the outer cast to the same shape changes nothing, and the sum is entry by entry
  refine (congrFun (shapeCast_self _ _) (ix2 p q)).trans ?_
  refine (addf_apply _ _ _).trans ?_
  refine congrArg (v3 (ix2 p q) + ·) ?_
  -- the product into a zero accumulator is the sum over the contraction index, re-indexed by its one coordinate
  refine (Ideal.matmul_constant_zero_apply dot_S1024x1024_S1024x1024_S1024x1024_1_0_0_1_n_n none _ _ (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  -- at coordinate k the left operand is read at (p, k) and the right one at (k, q)
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er, shapeCast_self, shapeCast_self]

/-- The output block at an entry. -/
theorem pay3_at (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  -- the sum is entry by entry; the bias row broadcast down the rows reads its one row at column q
  refine (addf_apply _ _ _).trans ?_
  refine congrArg (v16 (ix2 p q) + ·) ?_
  refine (broadcastTo_1b_ab_apply _ _ p q).trans ?_
  exact congrFun (shapeCast_self v17 _) (ix2 (0 : Fin 1) q)

end Cert.KernelIdeal.Pay

end
-- ==== Proof.KerAcc.lean ====
/-
  The accumulator, grid point by grid point.

  The grid has 8 · 4 · 4 = 128 points, the last coordinate (the step of the reduction) running fastest: point n is
  row block n / 16, column block (n / 4) mod 4, step n mod 4.  After point n the carried accumulator holds, at
  entry (p, q), the sum over the steps l ≤ n mod 4 of the block products
      ∑ k, A (row block · 1024 + p, l · 1024 + k) · B (l · 1024 + k, column block · 1024 + q),
  where A (8192 × 4096) and B (4096 × 4096) are the region's first two operands as it finds them; at a last step
  (n mod 4 = 3) the output block holds that sum plus the bias row's entry column block · 1024 + q.
  By induction on the point: a first step starts from the zero block, every later step adds one block product.
-/
import proofs.«156079_j6511170421195_1_alg».proof.Proof.Gen.KernelIdeal.Frame
import proofs.«156079_j6511170421195_1_alg».proof.Proof.Spec
import proofs.«156079_j6511170421195_1_alg».proof.Proof.KerPieces
import proofs.«156079_j6511170421195_1_alg».proof.Proof.KerPay
import Idealize.ShloMosaic.Lib.Pipeline.Value
import Idealize.ShloMosaic.Lib.ValueIdx

noncomputable section

namespace Cert.KernelIdeal.Acc

open Idealize.ShloMosaic Idealize.ShloMosaic.TcCoe Idealize.SL.Sem Idealize.ShloMosaic.ValueIdx
open Cert.KernelIdeal Cert.KernelIdeal.Gen Cert.BinLin

variable (m : (ℓ : Loc nD τ sig) → Buf (Elt Ideal) ℓ)

/-- The region's three operands as it finds them, at their literal types: x flattened (8192 × 4096), the
    transposed simulated weights (4096 × 4096), the bias row (1 × 4096). -/
abbrev opA (c : Dev nD) : Vec Ideal S8192x4096 .bf16 := V m c main_v30
abbrev opB (c : Dev nD) : Vec Ideal S4096x4096 .bf16 := V m c main_v28
abbrev opBias (c : Dev nD) : Vec Ideal S1x4096 .f32 := V m c main_v31

/-- The block product of step l at grid point n, entry (p, q). -/
def term (c : Dev nD) (n l : ℕ) (p q : Fin 1024) : EReal :=
  ∑ k : Fin 1024, opA m c (ix2 (cat8 (n / 16) p) (cat4 l k)) * opB m c (ix2 (cat4 l k) (cat4 (n / 4) q))

/-- The accumulator after grid point n, entry (p, q): the block products of the steps up to n mod 4. -/
def accAt (c : Dev nD) (n : ℕ) (p q : Fin 1024) : EReal :=
  ∑ l ∈ Finset.range (n % 4 + 1), term m c n l p q

/-- Entry (r, o) of the whole product plus bias, over the flattened rows: the four block products of row r and
    column o, plus the bias entry o. -/
def flatAt (c : Dev nD) (r : Fin 8192) (o : Fin 4096) : EReal :=
  (∑ l ∈ Finset.range 4, ∑ k : Fin 1024, opA m c (ix2 r (cat4 l k)) * opB m c (ix2 (cat4 l k) o))
    + opBias m c (ix2 (0 : Fin 1) o)

/-- The same as an 8192 × 4096 array. -/
def flat (c : Dev nD) : Vec Ideal S8192x4096 .f32 := fun j => flatAt m c (j 0) (j 1)

/-- The three input windows' block indices at grid point t: (t / 16, t mod 4), (t mod 4, (t / 4) mod 4), (0, (t / 4) mod 4). -/
private theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4 :=
  (by decide +kernel : ∀ t : Fin grid0.N, _)

/-- The three input blocks at grid point t, at their literal types. -/
private abbrev blkA (c : Dev nD) (t : Fin cfg0.N) : Vec Ideal S1024x1024 .bf16 := iblk m c 0 t
private abbrev blkB (c : Dev nD) (t : Fin cfg0.N) : Vec Ideal S1024x1024 .bf16 := iblk m c 1 t
private abbrev blkBias (c : Dev nD) (t : Fin cfg0.N) : Vec Ideal S1x1024 .f32 := iblk m c 2 t

/-- Entry (p, k) of the first operand's block at point t is the operand at row block t / 16, column block t mod 4. -/
private theorem blkA_at (c : Dev nD) (t : Fin cfg0.N) (p k : Fin 1024) :
    blkA m c t (ix2 p k) = opA m c (ix2 (cat8 (t.val / 16) p) (cat4 (t.val % 4) k)) := by
  obtain ⟨e0, e1, -⟩ := idx_facts t
  have hN : t.val < 128 := lt_of_lt_of_eq t.isLt (show cfg0.N = 128 from N_0)
  unfold blkA iblk
  rw [View.read_apply]
  show V m c main_v30 (((cfg0.win 0).blk t).view.emb (ix2 p k)) = V m c main_v30 (ix2 (cat8 (t.val / 16) p) (cat4 (t.val % 4) k))
  refine congrArg (V m c main_v30) (funext fun a => Fin.ext ?_)
  -- a block's coordinate is its block index times the block's extent plus the coordinate inside the block
  match a with
  | ⟨0, _⟩ =>
    show win0_0.index t (0 : Fin 2) * 1024 + 1 * p.val = (t.val / 16 % 8) * 1024 + p.val
    rw [e0]; omega
  | ⟨1, _⟩ =>
    show win0_0.index t (1 : Fin 2) * 1024 + 1 * k.val = (t.val % 4 % 4) * 1024 + k.val
    rw [e1]; omega

/-- Entry (k, q) of the second operand's block at point t is the operand at row block t mod 4, column block (t / 4) mod 4. -/
private theorem blkB_at (c : Dev nD) (t : Fin cfg0.N) (k q : Fin 1024) :
    blkB m c t (ix2 k q) = opB m c (ix2 (cat4 (t.val % 4) k) (cat4 (t.val / 4) q)) := by
  obtain ⟨-, -, e2, e3, -⟩ := idx_facts t
  unfold blkB iblk
  rw [View.read_apply]
  show V m c main_v28 (((cfg0.win 1).blk t).view.emb (ix2 k q)) = V m c main_v28 (ix2 (cat4 (t.val % 4) k) (cat4 (t.val / 4) q))
  refine congrArg (V m c main_v28) (funext fun a => Fin.ext ?_)
  match a with
  | ⟨0, _⟩ =>
    show win0_1.index t (0 : Fin 2) * 1024 + 1 * k.val = (t.val % 4 % 4) * 1024 + k.val
    rw [e2]; omega
  | ⟨1, _⟩ =>
    show win0_1.index t (1 : Fin 2) * 1024 + 1 * q.val = (t.val / 4 % 4) * 1024 + q.val
    rw [e3]; omega

/-- Entry q of the bias block at point t is the bias row at column block (t / 4) mod 4. -/
private theorem blkBias_at (c : Dev nD) (t : Fin cfg0.N) (q : Fin 1024) :
    blkBias m c t (ix2 (0 : Fin 1) q) = opBias m c (ix2 (0 : Fin 1) (cat4 (t.val / 4) q)) := by
  obtain ⟨-, -, -, -, e4, e5⟩ := idx_facts t
  unfold blkBias iblk
  rw [View.read_apply]
  show V m c main_v31 (((cfg0.win 2).blk t).view.emb (ix2 (0 : Fin 1) q)) = V m c main_v31 (ix2 (0 : Fin 1) (cat4 (t.val / 4) q))
  refine congrArg (V m c main_v31) (funext fun a => Fin.ext ?_)
  match a with
  | ⟨0, _⟩ =>
    show win0_2.index t (0 : Fin 2) * 1 + 1 * (0 : Fin 1).val = (0 : Fin 1).val
    rw [e4, Nat.zero_mul, Nat.zero_add, Nat.one_mul]
  | ⟨1, _⟩ =>
    show win0_2.index t (1 : Fin 2) * 1024 + 1 * q.val = (t.val / 4 % 4) * 1024 + q.val
    rw [e5]; omega

/-- The products of a point's two operand blocks, summed over the inner coordinate, are the block product of that
    point's own step. -/
private theorem step_eq (c : Dev nD) (t : Fin cfg0.N) (p q : Fin 1024) :
    ∑ k : Fin 1024, blkA m c t (ix2 p k) * blkB m c t (ix2 k q) = term m c t.val (t.val % 4) p q := by
  unfold term
  exact Finset.sum_congr rfl fun k _ => by rw [blkA_at, blkB_at]

/-- Within one reduction (n mod 4 ≠ 0) the point before has the same row block and column block. -/
private theorem term_pred (c : Dev nD) (n l : ℕ) (hn : n % 4 ≠ 0) (p q : Fin 1024) :
    term m c (n - 1) l p q = term m c n l p q := by
  unfold term
  rw [show (n - 1) / 16 = n / 16 by omega, show (n - 1) / 4 = n / 4 by omega]

/-- A first step: the accumulator is that step's block product alone. -/
private theorem accAt_first (c : Dev nD) (n : ℕ) (hn : n % 4 = 0) (p q : Fin 1024) :
    0 + term m c n (n % 4) p q = accAt m c n p q := by
  unfold accAt
  rw [hn, zero_add, Finset.sum_range_one]

/-- A later step: the accumulator of the point before plus this step's block product. -/
private theorem accAt_next (c : Dev nD) (n : ℕ) (hn : n % 4 ≠ 0) (p q : Fin 1024) :
    accAt m c (n - 1) p q + term m c n (n % 4) p q = accAt m c n p q := by
  unfold accAt
  rw [show (n - 1) % 4 + 1 = n % 4 by omega, Finset.sum_range_succ (fun l => term m c n l p q) (n % 4)]
  exact congrArg (· + term m c n (n % 4) p q) (Finset.sum_congr rfl fun l _ => term_pred m c n l hn p q)

/-- A first step (t mod 4 = 0) leaves the update over the zero block. -/
private theorem snd_A (c : Dev nD) (t : Fin cfg0.N) (h0 : t.val % 4 = 0) (h1 : ¬t.val % 4 = 3) :
    (outsAt0 m c t.val t.isLt).2 = k0_pay2 (k0_pay1 (F := Ideal)) (blkA m c t) (blkB m c t) := by
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (blkA m c t) (blkB m c t) (blkBias m c t)

/-- A middle step leaves the update over what the point before left. -/
private theorem snd_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (blkA m c t) (blkB m c t) := by
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (blkA m c t) (blkB m c t) (blkBias m c t) (outsAt0 m c (t.val - 1) (Nat.lt_of_le_of_lt (Nat.sub_le _ _) t.isLt)).2

/-- A last step (t mod 4 = 3) leaves the same in the accumulator … -/
private theorem snd_C (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (blkA m c t) (blkB m c t) := by
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blkA m c t) (blkB m c t) (blkBias m c t) (outsAt0 m c (t.val - 1) (Nat.lt_of_le_of_lt (Nat.sub_le _ _) t.isLt)).2

/-- … and that plus the bias row in the output block. -/
private theorem fst_C (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (blkA m c t) (blkB m c t)) (blkBias m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blkA m c t) (blkB m c t) (blkBias m c t) (outsAt0 m c (t.val - 1) (Nat.lt_of_le_of_lt (Nat.sub_le _ _) t.isLt)).2

/-- What the carried accumulator holds after grid point n. -/
theorem acc_eq (c : Dev nD) (n : ℕ) (h : n < cfg0.N) (p q : Fin 1024) :
    (outsAt0 m c n h).2 (ix2 p q) = accAt m c n p q := by
  -- by induction on the point: a first step starts from the zero block, a later one from the point before
  induction n using Nat.strong_induction_on generalizing p q with
  | _ n ih =>
    by_cases h0 : n % 4 = 0
    · refine (congrFun (snd_A m c ⟨n, h⟩ h0 (show ¬n % 4 = 3 by omega)) (ix2 p q)).trans ?_
      refine (Pay.pay2_at _ _ _ p q).trans ?_
      rw [Pay.pay1_at, step_eq]
      exact accAt_first m c n h0 p q
    · have e : (outsAt0 m c n h).2
          = k0_pay2 (outsAt0 m c (n - 1) (Nat.lt_of_le_of_lt (Nat.sub_le _ _) h)).2 (blkA m c ⟨n, h⟩) (blkB m c ⟨n, h⟩) := by
        by_cases h1 : n % 4 = 3
        · exact snd_C m c ⟨n, h⟩ h0 h1
        · exact snd_B m c ⟨n, h⟩ h0 h1
      refine (congrFun e (ix2 p q)).trans ?_
      refine (Pay.pay2_at _ _ _ p q).trans ?_
      rw [ih (n - 1) (by omega) _ p q, step_eq]
      exact accAt_next m c n h0 p q

/-- What the output block holds after a last step. -/
theorem out_eq (c : Dev nD) (t : Fin cfg0.N) (h3 : t.val % 4 = 3) (p q : Fin 1024) :
    (outsAt0 m c t.val t.isLt).1 (ix2 p q)
      = accAt m c t.val p q + opBias m c (ix2 (0 : Fin 1) (cat4 (t.val / 4) q)) := by
  have h0 : ¬t.val % 4 = 0 := by omega
  -- the output block is the new accumulator plus the bias row, entry by entry
  refine (congrFun (fst_C m c t h0 h3) (ix2 p q)).trans ?_
  refine (Pay.pay3_at _ _ p q).trans ?_
  rw [← snd_C m c t h0 h3, acc_eq m c t.val t.isLt p q, blkBias_at]

end Cert.KernelIdeal.Acc

end
-- ==== Proof.KerFinal.lean ====
/-
  From blocks to the array.  The output window writes a block back only after a last step of the reduction
  (n mod 4 = 3); the block written at such a point is rows (n / 16) · 1024 …, columns ((n / 4) mod 4) · 1024 … of
  the 8192 × 4096 result, and these 32 blocks cover it.  So after the region the result array is the whole
  product plus bias.
-/
import proofs.«156079_j6511170421195_1_alg».proof.Proof.KerAcc
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.BinLin Cert.KernelIdeal.Acc

variable (m : (ℓ : Loc nD τ sig) → Buf (Elt Ideal) ℓ)

/-- The output window's block at grid point t: row block t / 16, column block (t / 4) mod 4. -/
private theorem blockOf : ∀ t : Fin cfg0.N, win0_3.index t (0 : Fin 2) = t.val / 16 ∧ win0_3.index t (1 : Fin 2) = (t.val / 4) % 4 :=
  (by decide +kernel : ∀ t : Fin grid0.N, win0_3.index t (0 : Fin 2) = t.val / 16 ∧ win0_3.index t (1 : Fin 2) = (t.val / 4) % 4)

/-- After a last step (t mod 4 = 3) all four block products are in: entry (p, q) of the output block is the
    whole product plus bias at row (t / 16) · 1024 + p, column ((t / 4) mod 4) · 1024 + q. -/
private theorem out_flat (c : Dev nD) (t : Fin cfg0.N) (h3 : t.val % 4 = 3) (p q : Fin 1024) :
    (outsAt0 m c t.val t.isLt).1 (ix2 p q) = flatAt m c (cat8 (t.val / 16) p) (cat4 (t.val / 4) q) := by
  rw [out_eq m c t h3 p q]
  unfold accAt term flatAt
  rw [h3]

/-- The whole array at an index whose coordinates are r and o. -/
private theorem flat_at (c : Dev nD) (i : S8192x4096.Idx) (r : Fin 8192) (o : Fin 4096)
    (hr : (i 0).val = r.val) (ho : (i 1).val = o.val) : flat m c i = flatAt m c r o :=
  congrArg₂ (flatAt m c) (Fin.ext hr) (Fin.ext ho)

/-- What a last step writes back is its block of the whole array: rows (t / 16) · 1024 …, columns
    ((t / 4) mod 4) · 1024 …. -/
private theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  have hN : t.val < 128 := lt_of_lt_of_eq t.isLt (show cfg0.N = 128 from N_0)
  obtain ⟨e0, e1⟩ := blockOf t
  show (cfg0.win 3).cut (grid0.coords t) ((dats m 0 c).after 3 t) = _
  rw [after0_3]
  funext y
  have hp : (y (0 : Fin 2)).val < 1024 := Nat.lt_of_lt_of_le (y (0 : Fin 2)).isLt (win0_3.xsize_le (grid0.coords t) (0 : Fin 2))
  have hq : (y (1 : Fin 2)).val < 1024 := Nat.lt_of_lt_of_le (y (1 : Fin 2)).isLt (win0_3.xsize_le (grid0.coords t) (1 : Fin 2))
  have hx : win0_3.xinj (grid0.coords t) y = ix2 (⟨(y (0 : Fin 2)).val, hp⟩ : Fin 1024) (⟨(y (1 : Fin 2)).val, hq⟩ : Fin 1024) :=
    funext fun a => by
      match a with
      | ⟨0, _⟩ => rfl
      | ⟨1, _⟩ => rfl
  show (outsAt0 m c t.val t.isLt).1 (win0_3.xinj (grid0.coords t) y) = flat m c (((cfg0.win 3).blk t).view.emb y)
  rw [hx, out_flat m c t h3]
  symm
  refine flat_at m c _ _ _ ?_ ?_
  · show win0_3.index t (0 : Fin 2) * 1024 + 1 * (y (0 : Fin 2)).val = (t.val / 16 % 8) * 1024 + (y (0 : Fin 2)).val
    omega
  · show win0_3.index t (1 : Fin 2) * 1024 + 1 * (y (1 : Fin 2)).val = (t.val / 4 % 4) * 1024 + (y (1 : Fin 2)).val
    omega

/-- An index of the result is in point t's block iff each coordinate is in the block's range on its axis. -/
private theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v32).slice (win0_3.rect t)).set ↔ _
  rw [View.set_slice_whole, Rect.mem_set_unit]
  exact Iff.rfl

/-- The 32 blocks written back cover the result: row r, column o lies in the block of the last step of row block
    r / 1024 and column block o / 1024, which is point (r / 1024) · 16 + (o / 1024) · 4 + 3. -/
private theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 1024 * 16 + (i 1).val / 1024 * 4 + 3 :=
    ⟨⟨(i 0).val / 1024 * 16 + (i 1).val / 1024 * 4 + 3, lt_of_lt_of_eq (by omega : _ < 128) (show cfg0.N = 128 from N_0).symm⟩, rfl⟩
  obtain ⟨e0, e1⟩ := blockOf t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the region the output window's array holds the product plus bias, over the flattened rows. -/
theorem final3 (c : Dev nD) : (dats m 0 c).arrAt 3 cfg0.N = flat m c :=
  (dats m 0 c).arrAt_eq_of_cover 3 (flat m c) (fun t hf => flushed_eq m c t hf) cover

end Cert.KernelIdeal.Final

end
-- ==== Proof.KerInputs.lean ====
/-
  What the kernel region finds in its three operand arrays: the host operations before the region leave
  x flattened to 8192 × 4096, the simulated weights transposed, and the bias as a 1 × 4096 row
  (the two float-format changes are part of the terms; over the exact reals they are the identity).
  The operations run in five stretches; each stretch is read off over arbitrary contents, then the five are
  composed.
-/
import proofs.«156079_j6511170421195_1_alg».proof.Proof.Gen.KernelIdeal.Frame
import proofs.«156079_j6511170421195_1_alg».proof.Proof.Spec
import Idealize.ShloMosaic.Lib.StableHlo.Run
import Idealize.ShloMosaic.Lib.StableHlo.RunLoop
import Idealize.ShloMosaic.Lib.Pipeline.Value
import Idealize.ShloMosaic.Lib.ValueLayout

noncomputable section

namespace Cert.KernelIdeal.Inputs

open Idealize.ShloMosaic Idealize.ShloMosaic.TcCoe Idealize.SL.Sem Idealize.ShloMosaic.StableHlo
open Cert.KernelIdeal Cert.KernelIdeal.Gen

variable {F : FTy → Type} [FloatOps F]

/-! ## The host operations before the region, stretch by stretch, over any contents X -/

section Stretches
variable (X : Valuation τ sig (Elt F))

/-- First stretch: the mean, and the correction constant 1. -/
theorem s0_v1 : after (Gen.hostOps0 (F := F)) X (Proc.devRef .tc main_v1) = Cert.BinLin.mean (F := F) (X (Proc.devRef .tc main_arg1)) := by
  after_results; first | done | rfl
theorem s0_c : after (Gen.hostOps0 (F := F)) X (Proc.devRef .tc main_c) = constantI S_ 32 1#32 := by after_results
theorem s0_arg0 : after (Gen.hostOps0 (F := F)) X (Proc.devRef .tc main_arg0) = X (Proc.devRef .tc main_arg0) := by after_results
theorem s0_arg1 : after (Gen.hostOps0 (F := F)) X (Proc.devRef .tc main_arg1) = X (Proc.devRef .tc main_arg1) := by after_results
theorem s0_arg2 : after (Gen.hostOps0 (F := F)) X (Proc.devRef .tc main_arg2) = X (Proc.devRef .tc main_arg2) := by after_results

/-- Second stretch: the standard deviation. -/
theorem s1_v2 : after (Gen.hostOps0_1 (F := F)) X (Proc.devRef .tc main_v2)
    = Cert.BinLin.stdOf (F := F) (X (Proc.devRef .tc main_arg1)) (X (Proc.devRef .tc main_c)) := by
  after_results; first | done | rfl
theorem s1_v1 : after (Gen.hostOps0_1 (F := F)) X (Proc.devRef .tc main_v1) = X (Proc.devRef .tc main_v1) := by after_results
theorem s1_arg0 : after (Gen.hostOps0_1 (F := F)) X (Proc.devRef .tc main_arg0) = X (Proc.devRef .tc main_arg0) := by after_results
theorem s1_arg1 : after (Gen.hostOps0_1 (F := F)) X (Proc.devRef .tc main_arg1) = X (Proc.devRef .tc main_arg1) := by after_results
theorem s1_arg2 : after (Gen.hostOps0_1 (F := F)) X (Proc.devRef .tc main_arg2) = X (Proc.devRef .tc main_arg2) := by after_results

/-- Third stretch: the outlier mask, the entries times one, the binarised entries. -/
theorem s2_v11 : after (Gen.hostOps0_2 (F := F)) X (Proc.devRef .tc main_v11)
    = Cert.BinLin.outlierOf (F := F) (X (Proc.devRef .tc main_arg1)) (X (Proc.devRef .tc main_v1)) (X (Proc.devRef .tc main_v2)) := by
  after_results; first | done | rfl
theorem s2_v25 : after (Gen.hostOps0_2 (F := F)) X (Proc.devRef .tc main_v25)
    = Cert.BinLin.timesOne (F := F) (X (Proc.devRef .tc main_arg1)) := by
  after_results; first | done | rfl
attribute [local irreducible] Host.reduce Host.reduceAdd in
set_option maxHeartbeats 2000000 in
theorem s2_v23 : after (Gen.hostOps0_2 (F := F)) X (Proc.devRef .tc main_v23)
    = Cert.BinLin.binarised (F := F) (X (Proc.devRef .tc main_arg1)) (X (Proc.devRef .tc main_v1)) (X (Proc.devRef .tc main_v2)) := by
  after_results_simp
  rfl
theorem s2_arg0 : after (Gen.hostOps0_2 (F := F)) X (Proc.devRef .tc main_arg0) = X (Proc.devRef .tc main_arg0) := by after_results
theorem s2_arg2 : after (Gen.hostOps0_2 (F := F)) X (Proc.devRef .tc main_arg2) = X (Proc.devRef .tc main_arg2) := by after_results

/-- Fourth stretch: the selection between the two. -/
theorem s3_v26 : after (Gen.hostOps0_3 (F := F)) X (Proc.devRef .tc main_v26)
    = select (X (Proc.devRef .tc main_v11)) (X (Proc.devRef .tc main_v25)) (X (Proc.devRef .tc main_v23)) := by
  after_results; first | done | rfl
theorem s3_arg0 : after (Gen.hostOps0_3 (F := F)) X (Proc.devRef .tc main_arg0) = X (Proc.devRef .tc main_arg0) := by after_results
theorem s3_arg2 : after (Gen.hostOps0_3 (F := F)) X (Proc.devRef .tc main_arg2) = X (Proc.devRef .tc main_arg2) := by after_results

/-- Fifth stretch: the transpose, the flattening of x, the bias as a row. -/
theorem s4_v28 : after (Gen.hostOps0_4 (F := F)) X (Proc.devRef .tc main_v28)
    = truncf .bf16 (transpose S4096x4096 [1, 0] (X (Proc.devRef .tc main_v26)) transposes_S4096x4096_S4096x4096_1_0) bitsLt_bf16_f32 := by
  after_results; first | done | rfl
theorem s4_v30 : after (Gen.hostOps0_4 (F := F)) X (Proc.devRef .tc main_v30)
    = truncf .bf16 (shapeCast S8192x4096 (X (Proc.devRef .tc main_arg0)) shapeCasts_S4x2048x4096_S8192x4096) bitsLt_bf16_f32 := by
  after_results; first | done | rfl
theorem s4_v31 : after (Gen.hostOps0_4 (F := F)) X (Proc.devRef .tc main_v31)
    = shapeCast S1x4096 (X (Proc.devRef .tc main_arg2)) shapeCasts_S4096_S1x4096 := by
  after_results; first | done | rfl

end Stretches

/-! ## The five stretches composed -/

variable (m : (ℓ : Loc nD τ sig) → Buf (Elt F) ℓ)

/-- The contents the region finds are the five stretches run one after the other. -/
theorem V_eq (c : Dev nD) (b : Ref sig .tc) :
    V m c b = after (Gen.hostOps0_4 (F := F)) (after Gen.hostOps0_3 (after Gen.hostOps0_2 (after Gen.hostOps0_1 (after Gen.hostOps0 (fun b => m (c, b)))))) (Proc.devRef .tc b) := by
  show after (List.flatten [hostOps0, hostOps0_1, hostOps0_2, hostOps0_3, hostOps0_4]) (fun b => m (c, b)) (Proc.devRef .tc b) = _
  rw [← afterL_eq_after_flatten]
  rfl

/-- The region's second operand: the simulated weights, transposed. -/
theorem V_v28 (c : Dev nD) :
    V m c main_v28 = truncf .bf16 (transpose S4096x4096 [1, 0] (Cert.BinLin.wsim (F := F) (m ((c : Thread nD τ).loc main_arg1))) transposes_S4096x4096_S4096x4096_1_0) bitsLt_bf16_f32 := by
  rw [V_eq, s4_v28, s3_v26, s2_v11, s2_v25, s2_v23, s1_v2, s1_v1, s1_arg1, s0_v1, s0_c, s0_arg1]
  first | done | rfl

/-- The region's first operand: x flattened to 8192 rows. -/
theorem V_v30 (c : Dev nD) :
    V m c main_v30 = truncf .bf16 (shapeCast S8192x4096 (m ((c : Thread nD τ).loc main_arg0)) shapeCasts_S4x2048x4096_S8192x4096) bitsLt_bf16_f32 := by
  rw [V_eq, s4_v30, s3_arg0, s2_arg0, s1_arg0, s0_arg0]

/-- The region's third operand: the bias as one row. -/
theorem V_v31 (c : Dev nD) :
    V m c main_v31 = shapeCast S1x4096 (m ((c : Thread nD τ).loc main_arg2)) shapeCasts_S4096_S1x4096 := by
  rw [V_eq, s4_v31, s3_arg2, s2_arg2, s1_arg2, s0_arg2]

end Cert.KernelIdeal.Inputs

end
-- ==== Proof.Algebra.lean ====
/-
  Two facts about the exact reals that join the two programs.

  (1) Over finite entries  w + (sign w − w) = sign w,  so the two spellings of the simulated weights agree.
  (2) A sum over 4096 positions is the sum, over four consecutive blocks, of the sums over the 1024 positions of
      each block (addition of extended reals is commutative and associative, nothing more is used).
-/
import proofs.«156079_j6511170421195_1_alg».proof.Proof.Spec
import Mathlib.Algebra.BigOperators.Fin
import Mathlib.Logic.Equiv.Fin.Basic
import Mathlib.Data.EReal.Basic

noncomputable section

namespace Cert.BinLin

open Idealize.ShloMosaic Idealize.ShloMosaic.ValueIdx

/-- Over finite entries  w + (sign w − w) = sign w  entry by entry: with w i = r real and sign r = s real,
    it is  r + (s − r) = s  in ℝ. -/
private theorem add_sign_sub (w : FVec Ideal SW .f32) (hfin : ∀ i, ∃ r : ℝ, w i = (r : EReal)) :
    addf w (subf (Host.sign w) w) = Host.sign w := by
  funext i
  obtain ⟨r, hr⟩ := hfin i
  show w i + (Ideal.sign (w i) - w i) = Ideal.sign (w i)
  rw [hr, Ideal.sign_coe, ← EReal.coe_sub, ← EReal.coe_add]
  congr 1
  ring

/-- Over finite entries the two spellings of the simulated weights agree. -/
theorem wsimSte_eq_wsim (w : FVec Ideal SW .f32) (hfin : ∀ i, ∃ r : ℝ, w i = (r : EReal)) :
    wsimSte (F := Ideal) w = wsim (F := Ideal) w := by
  unfold wsimSte wsim wsimSteOf wsimOf binarisedSte binarised
  rw [add_sign_sub w hfin]

/-- A sum over 4096 positions, block by block. -/
theorem sum_blocks {M : Type*} [AddCommMonoid M] (f : Fin 4096 → M) :
    ∑ l ∈ Finset.range 4, ∑ k : Fin 1024, f (cat4 l k) = ∑ k : Fin 4096, f k := by
  rw [Finset.sum_range, ← Fintype.sum_prod_type']
  refine Fintype.sum_equiv (finProdFinEquiv (m := 4) (n := 1024)) _ _ ?_
  rintro ⟨l, k⟩
  congr 1
  apply Fin.ext
  have hl := l.isLt
  simp only [cat4, finProdFinEquiv, Equiv.coe_fn_mk]
  omega

end Cert.BinLin

end
-- ==== Proof.KerBridge.lean ====
/-
  The flattened product plus bias, reshaped to 4 × 2048 × 4096, is the linear layer: row r of the flattened x is
  (r / 2048, r mod 2048) of x, entry (k, o) of the transposed simulated weights is entry (o, k) of the simulated
  weights, and the four block sums of 1024 positions are the sum over the 4096 positions.
-/
import proofs.«156079_j6511170421195_1_alg».proof.Proof.KerAcc
import proofs.«156079_j6511170421195_1_alg».proof.Proof.KerInputs
import proofs.«156079_j6511170421195_1_alg».proof.Proof.Algebra
import Idealize.ShloMosaic.Lib.Pipeline.Value
import Idealize.ShloMosaic.Lib.ValueLayout

noncomputable section

namespace Cert.KernelIdeal.Bridge

open Idealize.ShloMosaic Idealize.ShloMosaic.TcCoe Idealize.SL.Sem Idealize.ShloMosaic.ValueIdx
open Cert.KernelIdeal Cert.KernelIdeal.Gen Cert.BinLin Cert.KernelIdeal.Acc

variable (m : (ℓ : Loc nD τ sig) → Buf (Elt Ideal) ℓ)

/-- Row a · 2048 + s of the flattened array. -/
private def row (a : Fin 4) (s : Fin 2048) : Fin 8192 :=
  ⟨a.val * 2048 + s.val, by have := a.isLt; have := s.isLt; omega⟩

/-- The 8192 × 4096 array reshaped to 4 × 2048 × 4096 reads, at (a, s, o), the operand at (a · 2048 + s, o): both have
    row-major position (a · 2048 + s) · 4096 + o. -/
private theorem cast_out_apply {α : Type} (y : S8192x4096.Idx → α) (a : Fin 4) (s : Fin 2048) (o : Fin 4096) :
    shapeCast S4x2048x4096 y shapeCasts_S8192x4096_S4x2048x4096 (ix3 a s o) = y (ix2 (row a s) o) :=
  shapeCast_apply y _ _ _ (by
    rw [Shape.rowMajor_val_two, Shape.rowMajor_val_three]
    show (a.val * 2048 + s.val) * 4096 + o.val = (a.val * 2048 + s.val) * 4096 + o.val
    rfl)

/-- The 4 × 2048 × 4096 array reshaped to 8192 × 4096 reads, at (a · 2048 + s, k), the operand at (a, s, k). -/
private theorem cast_in_apply {α : Type} (x : S4x2048x4096.Idx → α) (a : Fin 4) (s : Fin 2048) (k : Fin 4096) :
    shapeCast S8192x4096 x shapeCasts_S4x2048x4096_S8192x4096 (ix2 (row a s) k) = x (ix3 a s k) :=
  shapeCast_apply x _ _ _ (by
    rw [Shape.rowMajor_val_three, Shape.rowMajor_val_two]
    show (a.val * 2048 + s.val) * 4096 + k.val = (a.val * 2048 + s.val) * 4096 + k.val
    rfl)

/-- Entry (a · 2048 + s, o) of the blocked product plus bias, for operands that are x flattened, w transposed and b as a
    row (each through a change of format that is the identity on extended reals), is entry (a, s, o) of the linear layer:
    the flattened row reads x (a, s, ·), the transposed weights read w (o, ·), and the four block sums are the whole sum. -/
private theorem entry_eq (x : FVec Ideal S4x2048x4096 .f32) (w : FVec Ideal S4096x4096 .f32) (b : FVec Ideal S4096 .f32)
    (A : Vec Ideal S8192x4096 .bf16) (B : Vec Ideal S4096x4096 .bf16) (Bi : Vec Ideal S1x4096 .f32)
    (hA : A = truncf .bf16 (shapeCast S8192x4096 x shapeCasts_S4x2048x4096_S8192x4096) bitsLt_bf16_f32)
    (hB : B = truncf .bf16 (transpose S4096x4096 [1, 0] w transposes_S4096x4096_S4096x4096_1_0) bitsLt_bf16_f32)
    (hBi : Bi = shapeCast S1x4096 b shapeCasts_S4096_S1x4096)
    (a : Fin 4) (s : Fin 2048) (o : Fin 4096) :
    (∑ l ∈ Finset.range 4, ∑ k : Fin 1024, A (ix2 (row a s) (cat4 l k)) * B (ix2 (cat4 l k) o)) + Bi (ix2 (0 : Fin 1) o)
      = linearAt x w b a s o := by
  have hAk : ∀ k : Fin 4096, A (ix2 (row a s) k) = x (ix3 a s k) := by
    intro k; rw [hA]; exact cast_in_apply x a s k
  have hBk : ∀ k : Fin 4096, B (ix2 k o) = w (ix2 o k) := by
    intro k; rw [hB]; exact transpose_ix2_apply w _ k o
  have hb : Bi (ix2 (0 : Fin 1) o) = b (ix1 o) := by
    rw [hBi]; exact shapeCast_a_1a_apply b _ 0 o
  simp only [hAk, hBk, hb]
  rw [sum_blocks (fun k' => x (ix3 a s k') * w (ix2 o k'))]
  rfl

/-- The flattened result reshaped is the linear layer of the arguments. -/
theorem flat_eq (c : Dev nD) :
    shapeCast S4x2048x4096 (flat m c) shapeCasts_S8192x4096_S4x2048x4096
      = Cert.BinLin.linear (m ((c : Thread nD τ).loc main_arg0)) (Cert.BinLin.wsim (F := Ideal) (m ((c : Thread nD τ).loc main_arg1)))
          (m ((c : Thread nD τ).loc main_arg2)) := by
  funext i
  obtain ⟨a, s, o, rfl⟩ : ∃ (a : Fin 4) (s : Fin 2048) (o : Fin 4096), i = ix3 a s o := ⟨i 0, i 1, i 2, eq_ix3 i⟩
  rw [cast_out_apply]
  show flatAt m c (row a s) o
    = linearAt (m ((c : Thread nD τ).loc main_arg0)) (Cert.BinLin.wsim (F := Ideal) (m ((c : Thread nD τ).loc main_arg1)))
        (m ((c : Thread nD τ).loc main_arg2)) a s o
  unfold flatAt
  exact entry_eq _ _ _ (opA m c) (opB m c) (opBias m c) (Inputs.V_v30 m c) (Inputs.V_v28 m c) (Inputs.V_v31 m c) a s o

end Cert.KernelIdeal.Bridge

end
-- ==== Proof.KerRun.lean ====
/-
  The kernel program's run, read back: after the region the result array holds the flattened product plus bias;
  the one host operation after the region reshapes it to 4 × 2048 × 4096, which is the linear layer of the
  arguments; the arguments end unchanged.
-/
import proofs.«156079_j6511170421195_1_alg».proof.Proof.KerFinal
import proofs.«156079_j6511170421195_1_alg».proof.Proof.KerBridge
import Idealize.ShloMosaic.Lib.StableHlo.Run
import Idealize.ShloMosaic.Lib.Pipeline.Value

noncomputable section

namespace Cert.KernelIdeal.Value

open Idealize.ShloMosaic Idealize.ShloMosaic.TcCoe Idealize.SL.Sem Idealize.ShloMosaic.StableHlo
open Idealize.ShloMosaic.Pipeline (Dat)
open Cert.KernelIdeal Cert.KernelIdeal.Gen Cert.BinLin Cert.KernelIdeal.Acc

variable (m : (ℓ : Loc nD τ sig) → Buf (Elt Ideal) ℓ) (ρ : Dev nD → PrngReg)

/-- What the host operation after the region leaves in the program's result: the region's result array,
    reshaped — the linear layer of the arguments. -/
theorem result_eq (c : Dev nD) :
    Pipeline.afterTail₀ cfgs (dats m) 0 (V0 m) [hostOps1] c main_v33
      = Cert.BinLin.linear (m ((c : Thread nD τ).loc main_arg0)) (Cert.BinLin.wsim (F := Ideal) (m ((c : Thread nD τ).loc main_arg1)))
          (m ((c : Thread nD τ).loc main_arg2)) := by
  unfold Pipeline.afterTail₀
  show StableHlo.after hostOps1 _ (Proc.devRef .tc main_v33) = _
  after_results
  refine Eq.trans ?_ (Cert.KernelIdeal.Bridge.flat_eq m c)
  refine congrArg (fun A => shapeCast S4x2048x4096 A shapeCasts_S8192x4096_S4x2048x4096) ?_
  exact (Pipeline.withArrays_arr spec0 launch0.win.arr_inj c _ _ 3).trans (Cert.KernelIdeal.Final.final3 m c)

/-- Every weakly fair execution of the kernel program ends with its result at the linear layer of the arguments
    and with the arguments unchanged. -/
theorem run : θ_run defs (onTc (τ := τ) (main (F := Ideal))) ⟨m, fun _ => 0, ρ⟩ fun r => ∀ c : Dev nD,
      r.2.mem ((c.tc : Thread nD τ).loc main_v33)
          = Cert.BinLin.linear (m ((c : Thread nD τ).loc main_arg0)) (Cert.BinLin.wsim (F := Ideal) (m ((c : Thread nD τ).loc main_arg1)))
              (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v33 (Pipeline.mem_restRefs_of main_v33 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Value

end
-- ==== Proof.RefRun.lean ====
/-
  The reference program's run, read back.  Its @main is a straight line of sixty-one host operations once the three
  local functions it calls (the variance, the standard deviation, the two selections) are unfolded at their call
  sites.  The line is cut into five stretches — the mean; the standard deviation; the outlier mask, the scale and
  the two candidate values of an entry; the selection; the product with x and the bias — each read off over
  arbitrary contents and then composed: the result is  x · wsimᵀ + bias  with the sign written  w + (sign w − w).
-/
import proofs.«156079_j6511170421195_1_alg».proof.Proof.Gen.ReferenceIdeal
import proofs.«156079_j6511170421195_1_alg».proof.Proof.Spec
import Idealize.ShloMosaic.Lib.StableHlo.Run
import Idealize.ShloMosaic.Lib.StableHlo.RunLoop

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- The mean. -/
abbrev ops0 : List (HloOp τ sig (Elt F)) :=
  [ StableHlo.nullary main_cst (constant S_ .f32 0x00000000#32),
    StableHlo.binary main_arg1 main_cst main_v0 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_0 (constant S_ .f32 0x4B800000#32),
    StableHlo.binary main_v0 main_cst_0 main_v1 (Host.divf : (⟨S_, .f32⟩ : BufTy).Contents (Elt F) → (⟨S_, .f32⟩ : BufTy).Contents (Elt F) → (⟨S_, .f32⟩ : BufTy).Contents (Elt F)),
    StableHlo.nullary main_c (constantI S_ 32 1#32) ]
/-- The standard deviation (the variance's operations, the selection inside it, the square root). -/
abbrev ops1 : List (HloOp τ sig (Elt F)) :=
  [ StableHlo.TRef.nullary (.of main_call0_call0_cst : StableHlo.TRef sig ⟨S_, .f32⟩) (constant S_ .f32 0x00000000#32),
    StableHlo.TRef.binary (.of main_arg1 : StableHlo.TRef sig ⟨S4096x4096, .f32⟩) (.of main_call0_call0_cst : StableHlo.TRef sig ⟨S_, .f32⟩) (.of main_call0_call0_v0 : StableHlo.TRef sig ⟨S_, .f32⟩) (fun x v => Host.reduceAdd x v reducesTo_S4096x4096_S_d0_1 h_S_),
    StableHlo.TRef.unary (.of main_call0_call0_v0 : StableHlo.TRef sig ⟨S_, .f32⟩) (.of main_call0_call0_v1 : StableHlo.TRef sig ⟨S1x1, .f32⟩) (broadcastInDim S1x1 ![] bcast_S_S1x1),
    StableHlo.TRef.nullary (.of main_call0_call0_cst_0 : StableHlo.TRef sig ⟨S_, .f32⟩) (constant S_ .f32 0x4B800000#32),
    StableHlo.TRef.unary (.of main_call0_call0_cst_0 : StableHlo.TRef sig ⟨S_, .f32⟩) (.of main_call0_call0_v2 : StableHlo.TRef sig ⟨S1x1, .f32⟩) (broadcastInDim S1x1 ![] bcast_S_S1x1),
    StableHlo.TRef.binary (.of main_call0_call0_v1 : StableHlo.TRef sig ⟨S1x1, .f32⟩) (.of main_call0_call0_v2 : StableHlo.TRef sig ⟨S1x1, .f32⟩) (.of main_call0_call0_v3 : StableHlo.TRef sig ⟨S1x1, .f32⟩) Host.divf,
    StableHlo.TRef.unary (.of main_call0_call0_v3 : StableHlo.TRef sig ⟨S1x1, .f32⟩) (.of main_call0_call0_v4 : StableHlo.TRef sig ⟨S4096x4096, .f32⟩) (broadcastInDim S4096x4096 ![0, 1] bcast_S1x1_S4096x4096_0_1),
    StableHlo.TRef.binary (.of main_arg1 : StableHlo.TRef sig ⟨S4096x4096, .f32⟩) (.of main_call0_call0_v4 : StableHlo.TRef sig ⟨S4096x4096, .f32⟩) (.of main_call0_call0_v5 : StableHlo.TRef sig ⟨S4096x4096, .f32⟩) subf,
    StableHlo.TRef.binary (.of main_call0_call0_v5 : StableHlo.TRef sig ⟨S4096x4096, .f32⟩) (.of main_call0_call0_v5 : StableHlo.TRef sig ⟨S4096x4096, .f32⟩) (.of main_call0_call0_v6 : StableHlo.TRef sig ⟨S4096x4096, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x4B800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S4096x4096, .f32⟩) (.of main_call0_call0_cst_2 : StableHlo.TRef sig ⟨S_, .f32⟩) (.of main_call0_call0_v9 : StableHlo.TRef sig ⟨S_, .f32⟩) (fun x v => Host.reduceAdd x v reducesTo_S4096x4096_S_d0_1 h_S_),
    StableHlo.TRef.binary (.of main_call0_call0_v9 : StableHlo.TRef sig ⟨S_, .f32⟩) (.of main_call0_call0_v8 : StableHlo.TRef sig ⟨S_, .f32⟩) (.of main_call0_call0_v10 : StableHlo.TRef sig ⟨S_, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v11 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.ternary (.of main_call0_call0_v11 : StableHlo.TRef sig ⟨S_, .i1⟩) (.of main_call0_call0_v10 : StableHlo.TRef sig ⟨S_, .f32⟩) (.of main_call0_call0_call0_v0 : StableHlo.TRef sig ⟨S_, .f32⟩) (.of main_call0_v0 : StableHlo.TRef sig ⟨S_, .f32⟩) select,
    StableHlo.TRef.unary main_call0_call0.call0.v1 (.of main_v2 : StableHlo.TRef sig ⟨S_, .f32⟩) Host.sqrt ]
/-- The bounds, the outlier mask, the scale, the two candidate values of an entry. -/
abbrev ops2 : List (HloOp τ sig (Elt F)) :=
  [ StableHlo.nullary main_cst_1 (constant S_ .f32 0x3FCCCCCD#32),
    StableHlo.binary main_cst_1 main_v2 main_v3 (mulf : (⟨S_, .f32⟩ : BufTy).Contents (Elt F) → (⟨S_, .f32⟩ : BufTy).Contents (Elt F) → (⟨S_, .f32⟩ : BufTy).Contents (Elt F)),
    StableHlo.binary main_v1 main_v3 main_v4 (subf : (⟨S_, .f32⟩ : BufTy).Contents (Elt F) → (⟨S_, .f32⟩ : BufTy).Contents (Elt F) → (⟨S_, .f32⟩ : BufTy).Contents (Elt F)),
    StableHlo.nullary main_cst_2 (constant S_ .f32 0x3FCCCCCD#32),
    StableHlo.binary main_cst_2 main_v2 main_v5 (mulf : (⟨S_, .f32⟩ : BufTy).Contents (Elt F) → (⟨S_, .f32⟩ : BufTy).Contents (Elt F) → (⟨S_, .f32⟩ : BufTy).Contents (Elt F)),
    StableHlo.binary main_v1 main_v5 main_v6 (addf : (⟨S_, .f32⟩ : BufTy).Contents (Elt F) → (⟨S_, .f32⟩ : BufTy).Contents (Elt F) → (⟨S_, .f32⟩ : BufTy).Contents (Elt F)),
    StableHlo.unary main_v4 main_v7 (broadcastInDim S4096x4096 ![] bcast_S_S4096x4096 : (⟨S_, .f32⟩ : BufTy).Contents (Elt F) → (⟨S4096x4096, .f32⟩ : BufTy).Contents (Elt F)),
    StableHlo.binary main_arg1 main_v7 main_v8 (cmpf .olt : (⟨S4096x4096, .f32⟩ : BufTy).Contents (Elt F) → (⟨S4096x4096, .f32⟩ : BufTy).Contents (Elt F) → (⟨S4096x4096, .i1⟩ : BufTy).Contents (Elt F)),
    StableHlo.unary main_v6 main_v9 (broadcastInDim S4096x4096 ![] bcast_S_S4096x4096 : (⟨S_, .f32⟩ : BufTy).Contents (Elt F) → (⟨S4096x4096, .f32⟩ : BufTy).Contents (Elt F)),
    StableHlo.binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    StableHlo.binary main_v8 main_v10 main_v11 (ori : (⟨S4096x4096, .i1⟩ : BufTy).Contents (Elt F) → (⟨S4096x4096, .i1⟩ : BufTy).Contents (Elt F) → (⟨S4096x4096, .i1⟩ : BufTy).Contents (Elt F)),
    StableHlo.unary main_v11 main_v12 (noti : (⟨S4096x4096, .i1⟩ : BufTy).Contents (Elt F) → (⟨S4096x4096, .i1⟩ : BufTy).Contents (Elt F)),
    StableHlo.unary main_arg1 main_v13 (Host.absf : (⟨S4096x4096, .f32⟩ : BufTy).Contents (Elt F) → (⟨S4096x4096, .f32⟩ : BufTy).Contents (Elt F)),
    StableHlo.unary main_v12 main_v14 (uitofp .f32 : (⟨S4096x4096, .i1⟩ : BufTy).Contents (Elt F) → (⟨S4096x4096, .f32⟩ : BufTy).Contents (Elt F)),
    StableHlo.binary main_v13 main_v14 main_v15 (mulf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x00000000#32),
    StableHlo.binary main_v15 main_cst_3 main_v16 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.unary main_v12 main_v17 ((extui 32 · natLt_1_32) : (⟨S4096x4096, .i1⟩ : BufTy).Contents (Elt F) → (⟨S4096x4096, .i32⟩ : BufTy).Contents (Elt F)),
    StableHlo.nullary main_c_4 (constantI S_ 32 0#32),
    StableHlo.binary main_v17 main_c_4 main_v18 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    StableHlo.unary main_v18 main_v19 (sitofp .f32 : (⟨S_, .i32⟩ : BufTy).Contents (Elt F) → (⟨S_, .f32⟩ : BufTy).Contents (Elt F)),
    StableHlo.binary main_v16 main_v19 main_v20 (Host.divf : (⟨S_, .f32⟩ : BufTy).Contents (Elt F) → (⟨S_, .f32⟩ : BufTy).Contents (Elt F) → (⟨S_, .f32⟩ : BufTy).Contents (Elt F)),
    StableHlo.unary main_arg1 main_v21 (Host.sign : (⟨S4096x4096, .f32⟩ : BufTy).Contents (Elt F) → (⟨S4096x4096, .f32⟩ : BufTy).Contents (Elt F)),
    StableHlo.binary main_v21 main_arg1 main_v22 (subf : (⟨S4096x4096, .f32⟩ : BufTy).Contents (Elt F) → (⟨S4096x4096, .f32⟩ : BufTy).Contents (Elt F) → (⟨S4096x4096, .f32⟩ : BufTy).Contents (Elt F)),
    StableHlo.binary main_arg1 main_v22 main_v23 (addf : (⟨S4096x4096, .f32⟩ : BufTy).Contents (Elt F) → (⟨S4096x4096, .f32⟩ : BufTy).Contents (Elt F) → (⟨S4096x4096, .f32⟩ : BufTy).Contents (Elt F)),
    StableHlo.unary main_v20 main_v24 (broadcastInDim S4096x4096 ![] bcast_S_S4096x4096 : (⟨S_, .f32⟩ : BufTy).Contents (Elt F) → (⟨S4096x4096, .f32⟩ : BufTy).Contents (Elt F)),
    StableHlo.binary main_v23 main_v24 main_v25 (mulf : (⟨S4096x4096, .f32⟩ : BufTy).Contents (Elt F) → (⟨S4096x4096, .f32⟩ : BufTy).Contents (Elt F) → (⟨S4096x4096, .f32⟩ : BufTy).Contents (Elt F)),
    StableHlo.nullary main_cst_5 (constant S_ .f32 0x3F800000#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.binary main_arg1 main_v26 main_v27 (mulf : (⟨S4096x4096, .f32⟩ : BufTy).Contents (Elt F) → (⟨S4096x4096, .f32⟩ : BufTy).Contents (Elt F) → (⟨S4096x4096, .f32⟩ : BufTy).Contents (Elt F)) ]
/-- The selection between them. -/
abbrev ops3 : List (HloOp τ sig (Elt F)) :=
  [ StableHlo.TRef.ternary (.of main_v11 : StableHlo.TRef sig ⟨S4096x4096, .i1⟩) (.of main_v27 : StableHlo.TRef sig ⟨S4096x4096, .f32⟩) (.of main_v25 : StableHlo.TRef sig ⟨S4096x4096, .f32⟩) (.of main_v28 : StableHlo.TRef sig ⟨S4096x4096, .f32⟩) select ]
/-- The product with x and the bias. -/
abbrev ops4 : List (HloOp τ sig (Elt F)) :=
  [ StableHlo.binary main_arg0 main_v28 main_v29 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg2 main_v30 (broadcastInDim S1x1x4096 ![2] bcast_S4096_S1x1x4096_2 : (⟨S4096, .f32⟩ : BufTy).Contents (Elt F) → (⟨S1x1x4096, .f32⟩ : BufTy).Contents (Elt F)),
    StableHlo.unary main_v30 main_v31 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v29 main_v31 main_v32 (addf : (⟨S4x2048x4096, .f32⟩ : BufTy).Contents (Elt F) → (⟨S4x2048x4096, .f32⟩ : BufTy).Contents (Elt F) → (⟨S4x2048x4096, .f32⟩ : BufTy).Contents (Elt F)) ]

/-- The whole line. -/
abbrev ops : List (HloOp τ sig (Elt F)) :=
  [ StableHlo.nullary main_cst (constant S_ .f32 0x00000000#32),
    StableHlo.binary main_arg1 main_cst main_v0 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_0 (constant S_ .f32 0x4B800000#32),
    StableHlo.binary main_v0 main_cst_0 main_v1 (Host.divf : (⟨S_, .f32⟩ : BufTy).Contents (Elt F) → (⟨S_, .f32⟩ : BufTy).Contents (Elt F) → (⟨S_, .f32⟩ : BufTy).Contents (Elt F)),
    StableHlo.nullary main_c (constantI S_ 32 1#32),
    StableHlo.TRef.nullary (.of main_call0_call0_cst : StableHlo.TRef sig ⟨S_, .f32⟩) (constant S_ .f32 0x00000000#32),
    StableHlo.TRef.binary (.of main_arg1 : StableHlo.TRef sig ⟨S4096x4096, .f32⟩) (.of main_call0_call0_cst : StableHlo.TRef sig ⟨S_, .f32⟩) (.of main_call0_call0_v0 : StableHlo.TRef sig ⟨S_, .f32⟩) (fun x v => Host.reduceAdd x v reducesTo_S4096x4096_S_d0_1 h_S_),
    StableHlo.TRef.unary (.of main_call0_call0_v0 : StableHlo.TRef sig ⟨S_, .f32⟩) (.of main_call0_call0_v1 : StableHlo.TRef sig ⟨S1x1, .f32⟩) (broadcastInDim S1x1 ![] bcast_S_S1x1),
    StableHlo.TRef.nullary (.of main_call0_call0_cst_0 : StableHlo.TRef sig ⟨S_, .f32⟩) (constant S_ .f32 0x4B800000#32),
    StableHlo.TRef.unary (.of main_call0_call0_cst_0 : StableHlo.TRef sig ⟨S_, .f32⟩) (.of main_call0_call0_v2 : StableHlo.TRef sig ⟨S1x1, .f32⟩) (broadcastInDim S1x1 ![] bcast_S_S1x1),
    StableHlo.TRef.binary (.of main_call0_call0_v1 : StableHlo.TRef sig ⟨S1x1, .f32⟩) (.of main_call0_call0_v2 : StableHlo.TRef sig ⟨S1x1, .f32⟩) (.of main_call0_call0_v3 : StableHlo.TRef sig ⟨S1x1, .f32⟩) Host.divf,
    StableHlo.TRef.unary (.of main_call0_call0_v3 : StableHlo.TRef sig ⟨S1x1, .f32⟩) (.of main_call0_call0_v4 : StableHlo.TRef sig ⟨S4096x4096, .f32⟩) (broadcastInDim S4096x4096 ![0, 1] bcast_S1x1_S4096x4096_0_1),
    StableHlo.TRef.binary (.of main_arg1 : StableHlo.TRef sig ⟨S4096x4096, .f32⟩) (.of main_call0_call0_v4 : StableHlo.TRef sig ⟨S4096x4096, .f32⟩) (.of main_call0_call0_v5 : StableHlo.TRef sig ⟨S4096x4096, .f32⟩) subf,
    StableHlo.TRef.binary (.of main_call0_call0_v5 : StableHlo.TRef sig ⟨S4096x4096, .f32⟩) (.of main_call0_call0_v5 : StableHlo.TRef sig ⟨S4096x4096, .f32⟩) (.of main_call0_call0_v6 : StableHlo.TRef sig ⟨S4096x4096, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x4B800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S4096x4096, .f32⟩) (.of main_call0_call0_cst_2 : StableHlo.TRef sig ⟨S_, .f32⟩) (.of main_call0_call0_v9 : StableHlo.TRef sig ⟨S_, .f32⟩) (fun x v => Host.reduceAdd x v reducesTo_S4096x4096_S_d0_1 h_S_),
    StableHlo.TRef.binary (.of main_call0_call0_v9 : StableHlo.TRef sig ⟨S_, .f32⟩) (.of main_call0_call0_v8 : StableHlo.TRef sig ⟨S_, .f32⟩) (.of main_call0_call0_v10 : StableHlo.TRef sig ⟨S_, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v11 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.ternary (.of main_call0_call0_v11 : StableHlo.TRef sig ⟨S_, .i1⟩) (.of main_call0_call0_v10 : StableHlo.TRef sig ⟨S_, .f32⟩) (.of main_call0_call0_call0_v0 : StableHlo.TRef sig ⟨S_, .f32⟩) (.of main_call0_v0 : StableHlo.TRef sig ⟨S_, .f32⟩) select,
    StableHlo.TRef.unary main_call0_call0.call0.v1 (.of main_v2 : StableHlo.TRef sig ⟨S_, .f32⟩) Host.sqrt,
    StableHlo.nullary main_cst_1 (constant S_ .f32 0x3FCCCCCD#32),
    StableHlo.binary main_cst_1 main_v2 main_v3 (mulf : (⟨S_, .f32⟩ : BufTy).Contents (Elt F) → (⟨S_, .f32⟩ : BufTy).Contents (Elt F) → (⟨S_, .f32⟩ : BufTy).Contents (Elt F)),
    StableHlo.binary main_v1 main_v3 main_v4 (subf : (⟨S_, .f32⟩ : BufTy).Contents (Elt F) → (⟨S_, .f32⟩ : BufTy).Contents (Elt F) → (⟨S_, .f32⟩ : BufTy).Contents (Elt F)),
    StableHlo.nullary main_cst_2 (constant S_ .f32 0x3FCCCCCD#32),
    StableHlo.binary main_cst_2 main_v2 main_v5 (mulf : (⟨S_, .f32⟩ : BufTy).Contents (Elt F) → (⟨S_, .f32⟩ : BufTy).Contents (Elt F) → (⟨S_, .f32⟩ : BufTy).Contents (Elt F)),
    StableHlo.binary main_v1 main_v5 main_v6 (addf : (⟨S_, .f32⟩ : BufTy).Contents (Elt F) → (⟨S_, .f32⟩ : BufTy).Contents (Elt F) → (⟨S_, .f32⟩ : BufTy).Contents (Elt F)),
    StableHlo.unary main_v4 main_v7 (broadcastInDim S4096x4096 ![] bcast_S_S4096x4096 : (⟨S_, .f32⟩ : BufTy).Contents (Elt F) → (⟨S4096x4096, .f32⟩ : BufTy).Contents (Elt F)),
    StableHlo.binary main_arg1 main_v7 main_v8 (cmpf .olt : (⟨S4096x4096, .f32⟩ : BufTy).Contents (Elt F) → (⟨S4096x4096, .f32⟩ : BufTy).Contents (Elt F) → (⟨S4096x4096, .i1⟩ : BufTy).Contents (Elt F)),
    StableHlo.unary main_v6 main_v9 (broadcastInDim S4096x4096 ![] bcast_S_S4096x4096 : (⟨S_, .f32⟩ : BufTy).Contents (Elt F) → (⟨S4096x4096, .f32⟩ : BufTy).Contents (Elt F)),
    StableHlo.binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    StableHlo.binary main_v8 main_v10 main_v11 (ori : (⟨S4096x4096, .i1⟩ : BufTy).Contents (Elt F) → (⟨S4096x4096, .i1⟩ : BufTy).Contents (Elt F) → (⟨S4096x4096, .i1⟩ : BufTy).Contents (Elt F)),
    StableHlo.unary main_v11 main_v12 (noti : (⟨S4096x4096, .i1⟩ : BufTy).Contents (Elt F) → (⟨S4096x4096, .i1⟩ : BufTy).Contents (Elt F)),
    StableHlo.unary main_arg1 main_v13 (Host.absf : (⟨S4096x4096, .f32⟩ : BufTy).Contents (Elt F) → (⟨S4096x4096, .f32⟩ : BufTy).Contents (Elt F)),
    StableHlo.unary main_v12 main_v14 (uitofp .f32 : (⟨S4096x4096, .i1⟩ : BufTy).Contents (Elt F) → (⟨S4096x4096, .f32⟩ : BufTy).Contents (Elt F)),
    StableHlo.binary main_v13 main_v14 main_v15 (mulf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x00000000#32),
    StableHlo.binary main_v15 main_cst_3 main_v16 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.unary main_v12 main_v17 ((extui 32 · natLt_1_32) : (⟨S4096x4096, .i1⟩ : BufTy).Contents (Elt F) → (⟨S4096x4096, .i32⟩ : BufTy).Contents (Elt F)),
    StableHlo.nullary main_c_4 (constantI S_ 32 0#32),
    StableHlo.binary main_v17 main_c_4 main_v18 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    StableHlo.unary main_v18 main_v19 (sitofp .f32 : (⟨S_, .i32⟩ : BufTy).Contents (Elt F) → (⟨S_, .f32⟩ : BufTy).Contents (Elt F)),
    StableHlo.binary main_v16 main_v19 main_v20 (Host.divf : (⟨S_, .f32⟩ : BufTy).Contents (Elt F) → (⟨S_, .f32⟩ : BufTy).Contents (Elt F) → (⟨S_, .f32⟩ : BufTy).Contents (Elt F)),
    StableHlo.unary main_arg1 main_v21 (Host.sign : (⟨S4096x4096, .f32⟩ : BufTy).Contents (Elt F) → (⟨S4096x4096, .f32⟩ : BufTy).Contents (Elt F)),
    StableHlo.binary main_v21 main_arg1 main_v22 (subf : (⟨S4096x4096, .f32⟩ : BufTy).Contents (Elt F) → (⟨S4096x4096, .f32⟩ : BufTy).Contents (Elt F) → (⟨S4096x4096, .f32⟩ : BufTy).Contents (Elt F)),
    StableHlo.binary main_arg1 main_v22 main_v23 (addf : (⟨S4096x4096, .f32⟩ : BufTy).Contents (Elt F) → (⟨S4096x4096, .f32⟩ : BufTy).Contents (Elt F) → (⟨S4096x4096, .f32⟩ : BufTy).Contents (Elt F)),
    StableHlo.unary main_v20 main_v24 (broadcastInDim S4096x4096 ![] bcast_S_S4096x4096 : (⟨S_, .f32⟩ : BufTy).Contents (Elt F) → (⟨S4096x4096, .f32⟩ : BufTy).Contents (Elt F)),
    StableHlo.binary main_v23 main_v24 main_v25 (mulf : (⟨S4096x4096, .f32⟩ : BufTy).Contents (Elt F) → (⟨S4096x4096, .f32⟩ : BufTy).Contents (Elt F) → (⟨S4096x4096, .f32⟩ : BufTy).Contents (Elt F)),
    StableHlo.nullary main_cst_5 (constant S_ .f32 0x3F800000#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.binary main_arg1 main_v26 main_v27 (mulf : (⟨S4096x4096, .f32⟩ : BufTy).Contents (Elt F) → (⟨S4096x4096, .f32⟩ : BufTy).Contents (Elt F) → (⟨S4096x4096, .f32⟩ : BufTy).Contents (Elt F)),
    StableHlo.TRef.ternary (.of main_v11 : StableHlo.TRef sig ⟨S4096x4096, .i1⟩) (.of main_v27 : StableHlo.TRef sig ⟨S4096x4096, .f32⟩) (.of main_v25 : StableHlo.TRef sig ⟨S4096x4096, .f32⟩) (.of main_v28 : StableHlo.TRef sig ⟨S4096x4096, .f32⟩) select,
    StableHlo.binary main_arg0 main_v28 main_v29 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg2 main_v30 (broadcastInDim S1x1x4096 ![2] bcast_S4096_S1x1x4096_2 : (⟨S4096, .f32⟩ : BufTy).Contents (Elt F) → (⟨S1x1x4096, .f32⟩ : BufTy).Contents (Elt F)),
    StableHlo.unary main_v30 main_v31 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v29 main_v31 main_v32 (addf : (⟨S4x2048x4096, .f32⟩ : BufTy).Contents (Elt F) → (⟨S4x2048x4096, .f32⟩ : BufTy).Contents (Elt F) → (⟨S4x2048x4096, .f32⟩ : BufTy).Contents (Elt F)) ]

theorem ops_eq : (ops : List (HloOp τ sig (Elt F))) = List.flatten [ops0, ops1, ops2, ops3, ops4] := rfl

-- sixty-one binds re-associated: the rewrite under the chain recurses once per statement
set_option maxRecDepth 2048 in
/-- @main is that line: the local functions unfolded at their calls, the sequencing re-associated. -/
theorem main_eq (c : Dev nD) : main (F := F) c = seq ops := by
  simp only [main, fn_std.body, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.binary_bufs_sub .., StableHlo.nullary_bufs_sub .., StableHlo.binary_bufs_sub .., StableHlo.nullary_bufs_sub .., StableHlo.unary_bufs_sub ..,
    StableHlo.ternary_bufs_sub .., StableHlo.unary_bufs_sub .., StableHlo.nullary_bufs_sub .., StableHlo.binary_bufs_sub .., StableHlo.binary_bufs_sub .., StableHlo.nullary_bufs_sub ..,
    StableHlo.binary_bufs_sub .., StableHlo.binary_bufs_sub .., StableHlo.unary_bufs_sub .., StableHlo.binary_bufs_sub .., StableHlo.unary_bufs_sub .., StableHlo.binary_bufs_sub ..,
    StableHlo.binary_bufs_sub .., StableHlo.unary_bufs_sub .., StableHlo.unary_bufs_sub .., StableHlo.unary_bufs_sub .., StableHlo.binary_bufs_sub .., StableHlo.nullary_bufs_sub ..,
    StableHlo.binary_bufs_sub .., StableHlo.unary_bufs_sub .., StableHlo.nullary_bufs_sub .., StableHlo.binary_bufs_sub .., StableHlo.unary_bufs_sub .., StableHlo.binary_bufs_sub ..,
    StableHlo.unary_bufs_sub .., StableHlo.binary_bufs_sub .., StableHlo.binary_bufs_sub .., StableHlo.unary_bufs_sub .., StableHlo.binary_bufs_sub .., StableHlo.nullary_bufs_sub ..,
    StableHlo.unary_bufs_sub .., StableHlo.binary_bufs_sub .., StableHlo.ternary_bufs_sub .., StableHlo.binary_bufs_sub .., StableHlo.unary_bufs_sub .., StableHlo.unary_bufs_sub ..,
    StableHlo.binary_bufs_sub ..⟩

/-- Every weakly fair execution ends with each buffer at the line's fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The stretches over any contents X -/

section Stretches
variable (X : Valuation τ sig (Elt F))

theorem s0_v1 : after (ops0 (F := F)) X (Proc.devRef .tc main_v1) = Cert.BinLin.mean (F := F) (X (Proc.devRef .tc main_arg1)) := by
  after_results; first | done | rfl
theorem s0_c : after (ops0 (F := F)) X (Proc.devRef .tc main_c) = constantI S_ 32 1#32 := by after_results
theorem s0_arg0 : after (ops0 (F := F)) X (Proc.devRef .tc main_arg0) = X (Proc.devRef .tc main_arg0) := by after_results
theorem s0_arg1 : after (ops0 (F := F)) X (Proc.devRef .tc main_arg1) = X (Proc.devRef .tc main_arg1) := by after_results
theorem s0_arg2 : after (ops0 (F := F)) X (Proc.devRef .tc main_arg2) = X (Proc.devRef .tc main_arg2) := by after_results

theorem s1_v2 : after (ops1 (F := F)) X (Proc.devRef .tc main_v2)
    = Cert.BinLin.stdOf (F := F) (X (Proc.devRef .tc main_arg1)) (X (Proc.devRef .tc main_c)) := by
  after_results; first | done | rfl
theorem s1_v1 : after (ops1 (F := F)) X (Proc.devRef .tc main_v1) = X (Proc.devRef .tc main_v1) := by after_results
theorem s1_arg0 : after (ops1 (F := F)) X (Proc.devRef .tc main_arg0) = X (Proc.devRef .tc main_arg0) := by after_results
theorem s1_arg1 : after (ops1 (F := F)) X (Proc.devRef .tc main_arg1) = X (Proc.devRef .tc main_arg1) := by after_results
theorem s1_arg2 : after (ops1 (F := F)) X (Proc.devRef .tc main_arg2) = X (Proc.devRef .tc main_arg2) := by after_results

theorem s2_v11 : after (ops2 (F := F)) X (Proc.devRef .tc main_v11)
    = Cert.BinLin.outlierOf (F := F) (X (Proc.devRef .tc main_arg1)) (X (Proc.devRef .tc main_v1)) (X (Proc.devRef .tc main_v2)) := by
  after_results; first | done | rfl
theorem s2_v27 : after (ops2 (F := F)) X (Proc.devRef .tc main_v27)
    = Cert.BinLin.timesOne (F := F) (X (Proc.devRef .tc main_arg1)) := by
  after_results; first | done | rfl
attribute [local irreducible] Host.reduce Host.reduceAdd in
set_option maxHeartbeats 2000000 in
theorem s2_v25 : after (ops2 (F := F)) X (Proc.devRef .tc main_v25)
    = Cert.BinLin.binarisedSte (F := F) (X (Proc.devRef .tc main_arg1)) (X (Proc.devRef .tc main_v1)) (X (Proc.devRef .tc main_v2)) := by
  after_results_simp
  rfl
theorem s2_arg0 : after (ops2 (F := F)) X (Proc.devRef .tc main_arg0) = X (Proc.devRef .tc main_arg0) := by after_results
theorem s2_arg1 : after (ops2 (F := F)) X (Proc.devRef .tc main_arg1) = X (Proc.devRef .tc main_arg1) := by after_results
theorem s2_arg2 : after (ops2 (F := F)) X (Proc.devRef .tc main_arg2) = X (Proc.devRef .tc main_arg2) := by after_results

theorem s3_v28 : after (ops3 (F := F)) X (Proc.devRef .tc main_v28)
    = select (X (Proc.devRef .tc main_v11)) (X (Proc.devRef .tc main_v27)) (X (Proc.devRef .tc main_v25)) := by
  after_results; first | done | rfl
theorem s3_arg0 : after (ops3 (F := F)) X (Proc.devRef .tc main_arg0) = X (Proc.devRef .tc main_arg0) := by after_results
theorem s3_arg1 : after (ops3 (F := F)) X (Proc.devRef .tc main_arg1) = X (Proc.devRef .tc main_arg1) := by after_results
theorem s3_arg2 : after (ops3 (F := F)) X (Proc.devRef .tc main_arg2) = X (Proc.devRef .tc main_arg2) := by after_results

theorem s4_v32 : after (ops4 (F := F)) X (Proc.devRef .tc main_v32)
    = addf (Host.dotGeneral dot_S4x2048x4096_S4096x4096_S4x2048x4096_2_1_01_0_n_n none (X (Proc.devRef .tc main_arg0)) (X (Proc.devRef .tc main_v28)))
        (broadcastInDim S4x2048x4096 ![0, 1, 2] bcast_S1x1x4096_S4x2048x4096_0_1_2
          (broadcastInDim S1x1x4096 ![2] bcast_S4096_S1x1x4096_2 (X (Proc.devRef .tc main_arg2)))) := by
  after_results; first | done | rfl
theorem s4_arg0 : after (ops4 (F := F)) X (Proc.devRef .tc main_arg0) = X (Proc.devRef .tc main_arg0) := by after_results
theorem s4_arg1 : after (ops4 (F := F)) X (Proc.devRef .tc main_arg1) = X (Proc.devRef .tc main_arg1) := by after_results
theorem s4_arg2 : after (ops4 (F := F)) X (Proc.devRef .tc main_arg2) = X (Proc.devRef .tc main_arg2) := by after_results

/-- The line is its five stretches run one after the other. -/
theorem after_ops (b : DevRef τ sig) :
    after (ops (F := F)) X b = after ops4 (after ops3 (after ops2 (after ops1 (after ops0 X)))) b := by
  rw [ops_eq, ← afterL_eq_after_flatten]
  rfl

end Stretches

/-! ## The run -/

/-- Every weakly fair execution of the reference ends with its result at  x · wsimᵀ + bias  (the product and the
    broadcast bias as the program spells them, the simulated weights with the sign written  w + (sign w − w)) and
    with its three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = addf (Host.dotGeneral dot_S4x2048x4096_S4096x4096_S4x2048x4096_2_1_01_0_n_n none (m ((c.tc : Thread nD τ).loc main_arg0))
                (Cert.BinLin.wsimSte (F := F) (m ((c.tc : Thread nD τ).loc main_arg1))))
              (broadcastInDim S4x2048x4096 ![0, 1, 2] bcast_S1x1x4096_S4x2048x4096_0_1_2
                (broadcastInDim S1x1x4096 ![2] bcast_S4096_S1x1x4096_2 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v32).trans (by
        rw [after_ops, s4_v32, s3_v28, s2_v11, s2_v27, s2_v25, s1_v2, s1_v1, s1_arg1, s0_v1, s0_c, s0_arg1,
          s3_arg0, s2_arg0, s1_arg0, s0_arg0, s3_arg2, s2_arg2, s1_arg2, s0_arg2]
        first | done | rfl),
     (h c main_arg0).trans (by rw [after_ops, s4_arg0, s3_arg0, s2_arg0, s1_arg0, s0_arg0]),
     (h c main_arg1).trans (by rw [after_ops, s4_arg1, s3_arg1, s2_arg1, s1_arg1, s0_arg1]),
     (h c main_arg2).trans (by rw [after_ops, s4_arg2, s3_arg2, s2_arg2, s1_arg2, s0_arg2])⟩)
    (run_ops m ρ)

end Cert.ReferenceIdeal.Run

end
-- ==== Proof.RefValue.lean ====
/-
  The reference's last four operations read at an entry: the contraction of x (a, s, ·) with W (o, ·) over the
  4096 positions, plus the bias entry o broadcast over (a, s).
-/
import proofs.«156079_j6511170421195_1_alg».proof.Proof.Gen.ReferenceIdeal
import proofs.«156079_j6511170421195_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen

/-! The operand indices of the contraction at result index j and contraction index k, one axis at a time:
    the left operand reads j on its axes 0 and 1 and k on its axis 2; the right operand reads j's last coordinate on
    its axis 0 and k on its axis 1. -/

private theorem lhs_axis0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := by
  unfold DotDims.lhsIdx
  rw [dif_neg (show ¬ (0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  simp only [Fin.val_cast]
  have key : ∀ (p q : Nat) (hp : p < S4x2048x4096.rank) (hq : q < S4x2048x4096.rank), p = q →
      (j ⟨p, hp⟩).val = (j ⟨q, hq⟩).val := fun p q hp hq h => by subst h; rfl
  exact key _ _ _ _ (by decide)

private theorem lhs_axis1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := by
  unfold DotDims.lhsIdx
  rw [dif_neg (show ¬ (1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  simp only [Fin.val_cast]
  have key : ∀ (p q : Nat) (hp : p < S4x2048x4096.rank) (hq : q < S4x2048x4096.rank), p = q →
      (j ⟨p, hp⟩).val = (j ⟨q, hq⟩).val := fun p q hp hq h => by subst h; rfl
  exact key _ _ _ _ (by decide)

private theorem lhs_axis2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, by decide⟩).val :=
  DotDims.lhsIdx_val_of_single dot_S4x2048x4096_S4096x4096_S4x2048x4096_2_1_01_0_n_n (cl := 2) rfl j k

private theorem rhs_axis0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := by
  unfold DotDims.rhsIdx
  rw [dif_neg (show ¬ (0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  simp only [Fin.val_cast]
  have key : ∀ (p q : Nat) (hp : p < S4x2048x4096.rank) (hq : q < S4x2048x4096.rank), p = q →
      (j ⟨p, hp⟩).val = (j ⟨q, hq⟩).val := fun p q hp hq h => by subst h; rfl
  exact key _ _ _ _ (by decide)

private theorem rhs_axis1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, by decide⟩).val :=
  DotDims.rhsIdx_val_of_single dot_S4x2048x4096_S4096x4096_S4x2048x4096_2_1_01_0_n_n (cr := 1) rfl j k

/-- The bias broadcast first to 1 × 1 × 4096 and then to 4 × 2048 × 4096, read at (a, s, o), is the bias entry o. -/
private theorem bias_apply (b : FVec Ideal S4096 .f32) (a : Fin 4) (s : Fin 2048) (o : Fin 4096) :
    broadcastInDim S4x2048x4096 ![0, 1, 2] bcast_S1x1x4096_S4x2048x4096_0_1_2
      (broadcastInDim S1x1x4096 ![2] bcast_S4096_S1x1x4096_2 b) (ix3 a s o) = b (ix1 o) := by
  rw [broadcastInDim_apply _ _ _ _ (ix3 (0 : Fin 1) (0 : Fin 1) o)
    (by intro d; match d with | ⟨0, _⟩ => rfl | ⟨1, _⟩ => rfl | ⟨2, _⟩ => rfl)]
  rw [broadcastInDim_apply _ _ _ _ (ix1 o) (by intro d; match d with | ⟨0, _⟩ => rfl)]

/-- The product with the transposed weights plus the broadcast bias is the linear layer. -/
theorem result_eq (x : FVec Ideal S4x2048x4096 .f32) (W : FVec Ideal S4096x4096 .f32) (b : FVec Ideal S4096 .f32) :
    addf (Host.dotGeneral dot_S4x2048x4096_S4096x4096_S4x2048x4096_2_1_01_0_n_n none x W)
      (broadcastInDim S4x2048x4096 ![0, 1, 2] bcast_S1x1x4096_S4x2048x4096_0_1_2
        (broadcastInDim S1x1x4096 ![2] bcast_S4096_S1x1x4096_2 b))
      = Cert.BinLin.linear x W b := by
  funext i
  obtain ⟨a, s, o, rfl⟩ : ∃ (a : Fin 4) (s : Fin 2048) (o : Fin 4096), i = ix3 a s o := ⟨i 0, i 1, i 2, eq_ix3 i⟩
  rw [addf_apply, bias_apply]
  simp only [Host.dotGeneral]
  rw [Ideal.dotGeneral_apply, ← Equiv.sum_comp (contrEquiv1 dot_S4x2048x4096_S4096x4096_S4x2048x4096_2_1_01_0_n_n 4096 rfl rfl).symm]
  show _ = (∑ k : Fin 4096, x (ix3 a s k) * W (ix2 o k)) + b (ix1 o)
  congr 1
  refine Finset.sum_congr rfl fun k _ => ?_
  have hk := contrEquiv1_symm_val dot_S4x2048x4096_S4096x4096_S4x2048x4096_2_1_01_0_n_n 4096 rfl rfl k
  have hl : dot_S4x2048x4096_S4096x4096_S4x2048x4096_2_1_01_0_n_n.lhsIdx (ix3 a s o) ((contrEquiv1 dot_S4x2048x4096_S4096x4096_S4x2048x4096_2_1_01_0_n_n 4096 rfl rfl).symm k) = ix3 a s k := by
    funext d
    match d with
    | ⟨0, _⟩ => exact Fin.ext (lhs_axis0 _ _)
    | ⟨1, _⟩ => exact Fin.ext (lhs_axis1 _ _)
    | ⟨2, _⟩ => exact Fin.ext ((lhs_axis2 _ _).trans hk)
  have hr : dot_S4x2048x4096_S4096x4096_S4x2048x4096_2_1_01_0_n_n.rhsIdx (ix3 a s o) ((contrEquiv1 dot_S4x2048x4096_S4096x4096_S4x2048x4096_2_1_01_0_n_n 4096 rfl rfl).symm k) = ix2 o k := by
    funext d
    match d with
    | ⟨0, _⟩ => exact Fin.ext (rhs_axis0 _ _)
    | ⟨1, _⟩ => exact Fin.ext ((rhs_axis1 _ _).trans hk)
  rw [hl, hr]

end Cert.ReferenceIdeal.RefValue

end
-- ==== Proof.Finite.lean ====
/-
  The precondition says every input entry is smaller in absolute value than +∞; for the weights this means
  every entry is a real number.
-/
import proofs.«156079_j6511170421195_1_alg».proof.Defs
import proofs.«156079_j6511170421195_1_alg».proof.Proof.Gen.Pre_finite_inputs
import proofs.«156079_j6511170421195_1_alg».proof.Proof.Gen.KernelIdeal
import Idealize.ShloMosaic.Lib.ReduceAll
import Idealize.ShloMosaic.Lib.ValueIdx
import Idealize.ShloMosaic.Lib.Affine
import Idealize.ShloMosaic.PureOps.Ideal.Laws

noncomputable section

namespace Cert.Proof

open Idealize.ShloMosaic Idealize.SL.Sem

/-- The result shape of a full reduction has a single index. -/
private instance : Subsingleton Cert.Pre_finite_inputs.S_.Idx := ⟨fun a b => funext fun d => d.elim0⟩

/-- The word 0x7F800000 is +∞. -/
private theorem inf_bits : Ideal.ofBits .f32 0x7F800000#32 = (⊤ : EReal) := by
  simp [Ideal.ofBits, Ideal.ieee]

/-- An extended real whose absolute value max x (−x) is below +∞ is a real: −∞ has absolute value +∞, and so has +∞. -/
private theorem real_of_abs_lt_top (x : EReal) (hx : Ideal.cmp .olt (max x (-x)) (⊤ : EReal) = 1#1) :
    ∃ r : ℝ, x = (r : EReal) := by
  induction x using EReal.rec with
  | bot => simp [Ideal.cmp] at hx
  | coe r => exact ⟨r, rfl⟩
  | top => simp [Ideal.cmp] at hx

/-- Under the precondition every weight entry is a real number. -/
theorem weight_finite (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4096x4096.Idx) :
    ∃ r : ℝ, m ((c.tc : Thread Cert.KernelIdeal.nD Cert.KernelIdeal.τ).loc Cert.KernelIdeal.main_arg1) i = (r : EReal) := by
  have h0 := congrFun (h c) ValueIdx.ix0
  dsimp only [Cert.Pre_finite_inputs.fn] at h0
  simp only [andi, IntOp.andi_eq_one] at h0
  have e := Host.reduce_andi_all _ _ _ _ _ h0.1.2 i
  refine real_of_abs_lt_top _ ?_
  rw [← inf_bits]
  exact e

end Cert.Proof

end
-- ==== Proof.lean ====
/-
  The certificate.  Both programs compute  x · wsimᵀ + bias  over the exact reals, where wsim is the weight matrix
  with every entry that is not an outlier (more than 1.6 standard deviations from the mean) replaced by its sign
  times the mean absolute value of the entries that are not outliers.

  The kernel program prepares wsim with host operations, transposes it, flattens x to 8192 rows, and multiplies
  block by block on an 8 × 4 × 4 grid: for each 1024 × 1024 output block it accumulates four 1024-wide block
  products in a carried accumulator and adds the bias row at the last step.  The reference contracts x with wsim
  in one operation and adds the broadcast bias; it writes the sign of a weight as  w + (sign w − w), which over
  finite weights is the sign.  The sum over 4096 positions is the sum of the four block sums (addition of extended
  reals is commutative and associative), so the two results agree entry by entry.  The precondition (finite
  inputs) is used once: for  w + (sign w − w) = sign w.

  The three frames: the kernel programs' are the generated frame runs; the reference's is its run with the
  result dropped.  No operation was rewritten by the idealisation, so there is nothing to preserve.
-/
import proofs.«156079_j6511170421195_1_alg».proof.Defs
import proofs.«156079_j6511170421195_1_alg».proof.Proof.Gen.Kernel.Frame
import proofs.«156079_j6511170421195_1_alg».proof.Proof.Gen.KernelIdeal.Frame
import proofs.«156079_j6511170421195_1_alg».proof.Proof.Gen.ReferenceIdeal
import proofs.«156079_j6511170421195_1_alg».proof.Proof.Gen.Pre_finite_inputs
import proofs.«156079_j6511170421195_1_alg».proof.Proof.KerRun
import proofs.«156079_j6511170421195_1_alg».proof.Proof.RefRun
import proofs.«156079_j6511170421195_1_alg».proof.Proof.RefValue
import proofs.«156079_j6511170421195_1_alg».proof.Proof.Algebra
import proofs.«156079_j6511170421195_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both programs end at the linear layer of the arguments over the simulated weights: the kernel's by its run,
    the reference's by its run, the product read entry by entry, and the two spellings of the sign agreeing over
    finite weights. -/
theorem algebraic : Cert.algebraic_KernelIdeal_ReferenceIdeal := by
  intro m ρ m' ρ' hpre hagree
  refine ⟨fun c => Cert.BinLin.linear (m ((c.tc : Thread Cert.KernelIdeal.nD Cert.KernelIdeal.τ).loc Cert.KernelIdeal.main_arg0))
      (Cert.BinLin.wsim (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2, Cert.ReferenceIdeal.RefValue.result_eq,
    Cert.BinLin.wsimSte_eq_wsim _ (fun i => Cert.Proof.weight_finite m hpre c i)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
